-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S256x1024 : Shape := ⟨2, ![256, 1024]⟩
abbrev S256 : Shape := ⟨1, ![256]⟩
abbrev S768x256 : Shape := ⟨2, ![768, 256]⟩
abbrev S768 : Shape := ⟨1, ![768]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768 .f32) (main_arg8 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  main_v43

def fn_part1 {F : FTy → Type} [FloatOps F] (main_arg4 : FVec F S256 .f32) (main_arg5 : FVec F S768x256 .f32) (main_arg6 : FVec F S768x256 .f32) (main_arg7 : FVec F S768 .f32) (main_arg8 : FVec F S768 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S768x256 .f32 := Host.absf main_arg5
  let main_cst_8 : FVec F S_ .f32 := constant S_ .f32 0x7F800000#32
  let main_v25 : FVec F S768x256 .f32 := broadcastInDim S768x256 ![] bcast_S_S768x256 main_cst_8
  let main_v26 : IVec S768x256 1 := cmpf .olt main_v24 main_v25
  let main_c_9 : IVec S_ 1 := constantI S_ 1 1#1
  let main_v27 : IVec S_ 1 := (fun x v => Host.reduce IntOp.andi x v reducesTo_S768x256_S_d0_1 h_S_) main_v26 main_c_9
  let main_v28 : IVec S_ 1 := andi main_v23 main_v27
  let main_v29 : FVec F S768x256 .f32 := Host.absf main_arg6
  let main_cst_10 : FVec F S_ .f32 := constant S_ .f32 0x7F800000#32
  let main_v30 : FVec F S768x256 .f32 := broadcastInDim S768x256 ![] bcast_S_S768x256 main_cst_10
  let main_v31 : IVec S768x256 1 := cmpf .olt main_v29 main_v30
  let main_c_11 : IVec S_ 1 := constantI S_ 1 1#1
  let main_v32 : IVec S_ 1 := (fun x v => Host.reduce IntOp.andi x v reducesTo_S768x256_S_d0_1 h_S_) main_v31 main_c_11
  let main_v33 : IVec S_ 1 := andi main_v28 main_v32
  fn_part2 (F := F) main_arg7 main_arg8 main_v33

def fn {F : FTy → Type} [FloatOps F] (main_arg0 : FVec F S200000x256 .f32) (main_arg1 : FVec F S200000x256 .f32) (main_arg2 : FVec F S200000x256 .f32) (main_arg3 : FVec F S256x1024 .f32) (main_arg4 : FVec F S256 .f32) (main_arg5 : FVec F S768x256 .f32) (main_arg6 : FVec F S768x256 .f32) (main_arg7 : FVec F S768 .f32) (main_arg8 : FVec F S768 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S200000x256 .f32 := Host.absf main_arg2
  let main_cst_2 : FVec F S_ .f32 := constant S_ .f32 0x7F800000#32
  let main_v10 : FVec F S200000x256 .f32 := broadcastInDim S200000x256 ![] bcast_S_S200000x256 main_cst_2
  let main_v11 : IVec S200000x256 1 := cmpf .olt main_v9 main_v10
  let main_c_3 : IVec S_ 1 := constantI S_ 1 1#1
  let main_v12 : IVec S_ 1 := (fun x v => Host.reduce IntOp.andi x v reducesTo_S200000x256_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_arg5 main_arg6 main_arg7 main_arg8 main_v13 main_v16
-- ==== Kernel.lean ====
abbrev S200000x256 : Shape := ⟨2, ![200000, 256]⟩
abbrev S256x1024 : Shape := ⟨2, ![256, 1024]⟩
abbrev S256 : Shape := ⟨1, ![256]⟩
abbrev S768x256 : Shape := ⟨2, ![768, 256]⟩
abbrev S768 : Shape := ⟨1, ![768]⟩
abbrev S1024x256 : Shape := ⟨2, ![1024, 256]⟩
abbrev S256x768 : Shape := ⟨2, ![256, 768]⟩
abbrev S1x256 : Shape := ⟨2, ![1, 256]⟩
abbrev S1x768 : Shape := ⟨2, ![1, 768]⟩
abbrev S1000x256 : Shape := ⟨2, ![1000, 256]⟩
abbrev S256x256 : Shape := ⟨2, ![256, 256]⟩
abbrev S1000x768 : Shape := ⟨2, ![1000, 768]⟩

abbrev nBuf : Space → Nat
  | .hbm => 16
  | .vmem => 14
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S200000x256, .f32⟩
  | .hbm, ⟨3, _⟩ => ⟨S256x1024, .f32⟩
  | .hbm, ⟨4, _⟩ => ⟨S256, .f32⟩
  | .hbm, ⟨5, _⟩ => ⟨S768x256, .f32⟩
  | .hbm, ⟨6, _⟩ => ⟨S768x256, .f32⟩
  | .hbm, ⟨7, _⟩ => ⟨S768, .f32⟩
  | .hbm, ⟨8, _⟩ => ⟨S768, .f32⟩
  | .hbm, ⟨9, _⟩ => ⟨S1024x256, .f32⟩
  | .hbm, ⟨10, _⟩ => ⟨S256x768, .f32⟩
  | .hbm, ⟨11, _⟩ => ⟨S256x768, .f32⟩
  | .hbm, ⟨12, _⟩ => ⟨S1x256, .f32⟩
  | .hbm, ⟨13, _⟩ => ⟨S1x768, .f32⟩
  | .hbm, ⟨14, _⟩ => ⟨S1x768, .f32⟩
  | .hbm, ⟨15, _⟩ => ⟨S200000x256, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S1024x256, .f32⟩
  | .local _ .vmem, ⟨7, _⟩ => ⟨S256x768, .f32⟩
  | .local _ .vmem, ⟨8, _⟩ => ⟨S256x768, .f32⟩
  | .local _ .vmem, ⟨9, _⟩ => ⟨S1x256, .f32⟩
  | .local _ .vmem, ⟨10, _⟩ => ⟨S1x768, .f32⟩
  | .local _ .vmem, ⟨11, _⟩ => ⟨S1x768, .f32⟩
  | .local _ .vmem, ⟨12, _⟩ => ⟨S1000x256, .f32⟩
  | .local _ .vmem, ⟨13, _⟩ => ⟨S1000x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S256x1024_S1024x256_1_0 : S256x1024.Transposes [1, 0] S1024x256
  transposes_S768x256_S256x768_1_0 : S768x256.Transposes [1, 0] S256x768
  shapeCasts_S256_S1x256 : S256.ShapeCasts S1x256
  shapeCasts_S768_S1x768 : S768.ShapeCasts S1x768
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  slices_S1024x256_o0_0_S256x256 : S1024x256.Slices ![0, 0] S256x256
  slices_S1024x256_o256_0_S256x256 : S1024x256.Slices ![256, 0] S256x256
  slices_S1024x256_o512_0_S256x256 : S1024x256.Slices ![512, 0] S256x256
  slices_S1024x256_o768_0_S256x256 : S1024x256.Slices ![768, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1000x768 : S1x768.Broadcasts S1000x768
  slices_S1000x768_o0_0_S1000x256 : S1000x768.Slices ![0, 0] S1000x256
  slices_S1000x768_o0_256_S1000x256 : S1000x768.Slices ![0, 256] S1000x256
  slices_S1000x768_o0_512_S1000x256 : S1000x768.Slices ![0, 512] S1000x256
  dot_S1000x256_S256x256_S1000x256_1_0_0_1_n_n_wf : DotDims.WF S1000x256 S256x256 S1000x256 [1] [0] [0] [1] [] []
  dot_S1000x256_S256x768_S1000x768_1_0_0_1_n_n_wf : DotDims.WF S1000x256 S256x768 S1000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S200000x256.size a
  hwx0_0 : ∀ i : grid0.Coords, EltTy.bits .f32 = 32 ∨ (Rect.block (s := S200000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S200000x256.size a
  hwx0_1 : ∀ i : grid0.Coords, EltTy.bits .f32 = 32 ∨ (Rect.block (s := S200000x256) S1000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S200000x256.size a
  hwx0_2 : ∀ i : grid0.Coords, EltTy.bits .f32 = 32 ∨ (Rect.block (s := S200000x256) S1000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .f32 = 32 ∨ (Rect.block (s := S1024x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x768.size a ≤ S256x768.size a
  hwx0_4 : ∀ i : grid0.Coords, EltTy.bits .f32 = 32 ∨ (Rect.block (s := S256x768) S256x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x768.size a ≤ S256x768.size a
  hwx0_5 : ∀ i : grid0.Coords, EltTy.bits .f32 = 32 ∨ (Rect.block (s := S256x768) S256x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x256.size a ≤ S200000x256.size a
  hwx0_9 : ∀ i : grid0.Coords, EltTy.bits .f32 = 32 ∨ (Rect.block (s := S200000x256) S1000x256.size (cc0_transform_9 i) (hinb0_9 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x768_S1000x768_1_0_0_1_n_n : DotDims S1000x256 S256x768 S1000x768 where
  lhsContracting := [1]
  rhsContracting := [0]
  lhsNonContracting := [0]
  rhsNonContracting := [1]
  lhsBatch := []
  rhsBatch := []
  wf := dot_S1000x256_S256x768_S1000x768_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S200000x256 : Shape := ⟨2, ![200000, 256]⟩
abbrev S256x1024 : Shape := ⟨2, ![256, 1024]⟩
abbrev S256 : Shape := ⟨1, ![256]⟩
abbrev S768x256 : Shape := ⟨2, ![768, 256]⟩
abbrev S768 : Shape := ⟨1, ![768]⟩
abbrev S200000x1024 : Shape := ⟨2, ![200000, 1024]⟩
abbrev S1024x256 : Shape := ⟨2, ![1024, 256]⟩
abbrev S1x256 : Shape := ⟨2, ![1, 256]⟩
abbrev S_ : Shape := ⟨0, ![]⟩
abbrev S256x768 : Shape := ⟨2, ![256, 768]⟩
abbrev S200000x768 : Shape := ⟨2, ![200000, 768]⟩
abbrev S1x768 : Shape := ⟨2, ![1, 768]⟩

abbrev nBuf : Space → Nat
  | .hbm => 74
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S200000x256, .f32⟩
  | .hbm, ⟨3, _⟩ => ⟨S256x1024, .f32⟩
  | .hbm, ⟨4, _⟩ => ⟨S256, .f32⟩
  | .hbm, ⟨5, _⟩ => ⟨S768x256, .f32⟩
  | .hbm, ⟨6, _⟩ => ⟨S768x256, .f32⟩
  | .hbm, ⟨7, _⟩ => ⟨S768, .f32⟩
  | .hbm, ⟨8, _⟩ => ⟨S768, .f32⟩
  | .hbm, ⟨9, _⟩ => ⟨S200000x256, .f32⟩
  | .hbm, ⟨10, _⟩ => ⟨S200000x256, .f32⟩
  | .hbm, ⟨11, _⟩ => ⟨S200000x1024, .f32⟩
  | .hbm, ⟨12, _⟩ => ⟨S1024x256, .f32⟩
  | .hbm, ⟨13, _⟩ => ⟨S200000x256, .f32⟩
  | .hbm, ⟨14, _⟩ => ⟨S1x256, .f32⟩
  | .hbm, ⟨15, _⟩ => ⟨S200000x256, .f32⟩
  | .hbm, ⟨16, _⟩ => ⟨S200000x256, .f32⟩
  | .hbm, ⟨17, _⟩ => ⟨S200000x256, .f32⟩
  | .hbm, ⟨18, _⟩ => ⟨S200000x256, .f32⟩
  | .hbm, ⟨19, _⟩ => ⟨S_, .f32⟩
  | .hbm, ⟨20, _⟩ => ⟨S200000x256, .f32⟩
  | .hbm, ⟨21, _⟩ => ⟨S200000x256, .f32⟩
  | .hbm, ⟨22, _⟩ => ⟨S_, .f32⟩
  | .hbm, ⟨23, _⟩ => ⟨S200000x256, .f32⟩
  | .hbm, ⟨24, _⟩ => ⟨S200000x256, .f32⟩
  | .hbm, ⟨25, _⟩ => ⟨S200000x256, .f32⟩
  | .hbm, ⟨26, _⟩ => ⟨S_, .f32⟩
  | .hbm, ⟨27, _⟩ => ⟨S200000x256, .f32⟩
  | .hbm, ⟨28, _⟩ => ⟨S200000x256, .f32⟩
  | .hbm, ⟨29, _⟩ => ⟨S200000x256, .f32⟩
  | .hbm, ⟨30, _⟩ => ⟨S200000x256, .f32⟩
  | .hbm, ⟨31, _⟩ => ⟨S256x768, .f32⟩
  | .hbm, ⟨32, _⟩ => ⟨S200000x768, .f32⟩
  | .hbm, ⟨33, _⟩ => ⟨S1x768, .f32⟩
  | .hbm, ⟨34, _⟩ => ⟨S200000x768, .f32⟩
  | .hbm, ⟨35, _⟩ => ⟨S200000x768, .f32⟩
  | .hbm, ⟨36, _⟩ => ⟨S256x768, .f32⟩
  | .hbm, ⟨37, _⟩ => ⟨S200000x768, .f32⟩
  | .hbm, ⟨38, _⟩ => ⟨S1x768, .f32⟩
  | .hbm, ⟨39, _⟩ => ⟨S200000x768, .f32⟩
  | .hbm, ⟨40, _⟩ => ⟨S200000x768, .f32⟩
  | .hbm, ⟨41, _⟩ => ⟨S200000x256, .f32⟩
  | .hbm, ⟨42, _⟩ => ⟨S200000x256, .f32⟩
  | .hbm, ⟨43, _⟩ => ⟨S200000x256, .f32⟩
  | .hbm, ⟨44, _⟩ => ⟨S200000x256, .f32⟩
  | .hbm, ⟨45, _⟩ => ⟨S200000x256, .f32⟩
  | .hbm, ⟨46, _⟩ => ⟨S200000x256, .f32⟩
  | .hbm, ⟨47, _⟩ => ⟨S200000x256, .f32⟩
  | .hbm, ⟨48, _⟩ => ⟨S200000x256, .f32⟩
  | .hbm, ⟨49, _⟩ => ⟨S200000x256, .f32⟩
  | .hbm, ⟨50, _⟩ => ⟨S_, .f32⟩
  | .hbm, ⟨51, _⟩ => ⟨S200000x256, .f32⟩
  | .hbm, ⟨52, _⟩ => ⟨S200000x256, .f32⟩
  | .hbm, ⟨53, _⟩ => ⟨S_, .f32⟩
  | .hbm, ⟨54, _⟩ => ⟨S200000x256, .f32⟩
  | .hbm, ⟨55, _⟩ => ⟨S200000x256, .f32⟩
  | .hbm, ⟨56, _⟩ => ⟨S200000x256, .f32⟩
  | .hbm, ⟨57, _⟩ => ⟨S200000x256, .f32⟩
  | .hbm, ⟨58, _⟩ => ⟨S200000x256, .f32⟩
  | .hbm, ⟨59, _⟩ => ⟨S_, .f32⟩
  | .hbm, ⟨60, _⟩ => ⟨S200000x256, .f32⟩
  | .hbm, ⟨61, _⟩ => ⟨S200000x256, .f32⟩
  | .hbm, ⟨62, _⟩ => ⟨S_, .f32⟩
  | .hbm, ⟨63, _⟩ => ⟨S200000x256, .f32⟩
  | .hbm, ⟨64, _⟩ => ⟨S200000x256, .f32⟩
  | .hbm, ⟨65, _⟩ => ⟨S200000x256, .f32⟩
  | .hbm, ⟨66, _⟩ => ⟨S200000x256, .f32⟩
  | .hbm, ⟨67, _⟩ => ⟨S200000x256, .f32⟩
  | .hbm, ⟨68, _⟩ => ⟨S_, .f32⟩
  | .hbm, ⟨69, _⟩ => ⟨S200000x256, .f32⟩
  | .hbm, ⟨70, _⟩ => ⟨S200000x256, .f32⟩
  | .hbm, ⟨71, _⟩ => ⟨S200000x256, .f32⟩
  | .hbm, ⟨72, _⟩ => ⟨S200000x256, .f32⟩
  | .hbm, ⟨73, _⟩ => ⟨S200000x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]

class Facts₀ : Prop where
  concatenates_S200000x256_S200000x256_S200000x256_S200000x256_S200000x1024_d1 : Shape.Concatenates [S200000x256, S200000x256, S200000x256, S200000x256] S200000x1024 1
  transposes_S256x1024_S1024x256_1_0 : S256x1024.Transposes [1, 0] S1024x256
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  transposes_S768x256_S256x768_1_0 : S768x256.Transposes [1, 0] S256x768
  bcast_S768_S1x768_1 : S768.BroadcastsInDim S1x768 (![1] : Fin 1 → Fin S1x768.rank)
  bcast_S1x768_S200000x768_0_1 : S1x768.BroadcastsInDim S200000x768 (![0, 1] : Fin 2 → Fin S200000x768.rank)
  slices_S200000x768_S200000x256_0_0 : S200000x768.Slices ![0, 0] S200000x256
  slices_S200000x768_S200000x256_0_256 : S200000x768.Slices ![0, 256] S200000x256
  slices_S200000x768_S200000x256_0_512 : S200000x768.Slices ![0, 512] S200000x256
  dot_S200000x1024_S1024x256_S200000x256_1_0_0_1_n_n_wf : DotDims.WF S200000x1024 S1024x256 S200000x256 [1] [0] [0] [1] [] []
  dot_S200000x256_S256x768_S200000x768_1_0_0_1_n_n_wf : DotDims.WF S200000x256 S256x768 S200000x768 [1] [0] [0] [1] [] []

variable [Facts₀]

def dot_S200000x1024_S1024x256_S200000x256_1_0_0_1_n_n : DotDims S200000x1024 S1024x256 S200000x256 where
  lhsContracting := [1]
  rhsContracting := [0]
  lhsNonContracting := [0]
  rhsNonContracting := [1]
  lhsBatch := []
  rhsBatch := []
  wf := dot_S200000x1024_S1024x256_S200000x256_1_0_0_1_n_n_wf
def dot_S200000x256_S256x768_S200000x768_1_0_0_1_n_n : DotDims S200000x256 S256x768 S200000x768 where
  lhsContracting := [1]
  rhsContracting := [0]
  lhsNonContracting := [0]
  rhsNonContracting := [1]
  lhsBatch := []
  rhsBatch := []
  wf := dot_S200000x256_S256x768_S200000x768_1_0_0_1_n_n_wf

class Facts : Prop extends Facts₀ where

variable [Facts]
-- ==== Proof.RowSpec.lean ====
/-
  The gated fuse followed by a GRU cell, one output row at a time.

  A row of the result depends on the same row of the three node arrays and on the weights only. Over the extended
  reals, for a row `fr` of `f`, `hr` of `h_v`, `h2r` of `h_v_`, and the weights read as plain functions of their
  indices (`wz k j` the entry of the fuse weight that multiplies concatenated feature `k` into gate feature `j`;
  `wih k c` and `whh k c` the entries of the two GRU weights that multiply feature `k` into gate column `c`):

    gateIn j = ((Σₖ hr k · wz k j + Σₖ h2r k · wz (256+k) j) + Σₖ (hr k − h2r k) · wz (512+k) j)
                 + Σₖ (hr k · h2r k) · wz (768+k) j + bz j
    z j      = logistic (gateIn j)
    fuse j   = z j · hr j + (1 − z j) · h2r j
    gi c     = Σₖ fr k · wih k c + bih c          gh c = Σₖ fz k · whh k c + bhh c      (fz a hidden row)
    r j      = logistic (gi j + gh j)             u j  = logistic (gi (256+j) + gh (256+j))
    n j      = tanh (gi (512+j) + r j · gh (512+j))
    gruCell j = (1 − u j) · n j + u j · fz j
    cell     = gruCell at fz = fuse

  The concatenated feature axis of length 1024 is the four feature chunks `h_v`, `h_v_`, their difference and their
  product laid end to end, so a sum over it is the sum of four sums over 256 (`sum_four_chunks`): addition of
  extended reals is commutative and associative, and nothing else is used.
-/
import Idealize.ShloMosaic.PureOps.Ideal
import Idealize.ShloMosaic.PureOps.IdealRules
import Mathlib.Algebra.BigOperators.Fin

noncomputable section

namespace Cert.GatedGru

open Idealize.ShloMosaic

/-- The number one, as both programs spell it. -/
abbrev one : EReal := Ideal.ofBits .f32 0x3F800000#32

theorem one_eq : one = 1 := IdealRules.sign_bit.ideal_onePat .f32

/-- Position `k` of chunk 0, 1, 2, 3 of the concatenated feature axis. -/
abbrev c0 (k : Fin 256) : Fin 1024 := ⟨k.val, by omega⟩
abbrev c1 (k : Fin 256) : Fin 1024 := ⟨256 + k.val, by omega⟩
abbrev c2 (k : Fin 256) : Fin 1024 := ⟨512 + k.val, by omega⟩
abbrev c3 (k : Fin 256) : Fin 1024 := ⟨768 + k.val, by omega⟩

/-- Column `j` of the reset, update and candidate thirds of the GRU's gate axis. -/
abbrev g0 (j : Fin 256) : Fin 768 := ⟨j.val, by omega⟩
abbrev g1 (j : Fin 256) : Fin 768 := ⟨256 + j.val, by omega⟩
abbrev g2 (j : Fin 256) : Fin 768 := ⟨512 + j.val, by omega⟩

/-- The expansion of the logistic function into negate, exponential, add and divide is the logistic function. -/
theorem logistic_expanded (x : EReal) : Ideal.div one (one + Ideal.exp (-x)) = Ideal.logistic x := by
  rw [one_eq]; rfl

/-- A sum over the concatenated axis is the sum of the four chunks' sums, in the order the chunks are laid. -/
theorem sum_four_chunks (g : Fin 1024 → EReal) :
    ∑ k : Fin 1024, g k
      = (((∑ k : Fin 256, g (c0 k)) + ∑ k : Fin 256, g (c1 k)) + ∑ k : Fin 256, g (c2 k)) + ∑ k : Fin 256, g (c3 k) := by
  have h3 : ∑ k : Fin 1024, g k
      = (∑ i : Fin 768, g (Fin.castAdd 256 i)) + ∑ i : Fin 256, g (Fin.natAdd 768 i) :=
    Fin.sum_univ_add (a := 768) (b := 256) g
  have h2 : ∑ i : Fin 768, g (Fin.castAdd 256 i)
      = (∑ i : Fin 512, g (Fin.castAdd 256 (Fin.castAdd 256 i))) + ∑ i : Fin 256, g (Fin.castAdd 256 (Fin.natAdd 512 i)) :=
    Fin.sum_univ_add (a := 512) (b := 256) (fun i => g (Fin.castAdd 256 i))
  have h1 : ∑ i : Fin 512, g (Fin.castAdd 256 (Fin.castAdd 256 i))
      = (∑ i : Fin 256, g (Fin.castAdd 256 (Fin.castAdd 256 (Fin.castAdd 256 i))))
        + ∑ i : Fin 256, g (Fin.castAdd 256 (Fin.castAdd 256 (Fin.natAdd 256 i))) :=
    Fin.sum_univ_add (a := 256) (b := 256) (fun i => g (Fin.castAdd 256 (Fin.castAdd 256 i)))
  rw [h3, h2, h1]
  rfl

section Cell

variable (fr hr h2r : Fin 256 → EReal) (wz : Fin 1024 → Fin 256 → EReal) (bz : Fin 256 → EReal)
  (wih whh : Fin 256 → Fin 768 → EReal) (bih bhh : Fin 768 → EReal)

/-- The fuse gate's pre-activation at feature `j`: the four chunk products summed in order, plus the bias. -/
def gateIn (j : Fin 256) : EReal :=
  ((((∑ k : Fin 256, hr k * wz (c0 k) j) + ∑ k : Fin 256, h2r k * wz (c1 k) j)
      + ∑ k : Fin 256, (hr k - h2r k) * wz (c2 k) j)
    + ∑ k : Fin 256, (hr k * h2r k) * wz (c3 k) j) + bz j

/-- The fused hidden state at feature `j`. -/
def fuse (j : Fin 256) : EReal :=
  Ideal.logistic (gateIn hr h2r wz bz j) * hr j + (one - Ideal.logistic (gateIn hr h2r wz bz j)) * h2r j

/-- The input-side gate pre-activations at gate column `c`. -/
def gi (c : Fin 768) : EReal := (∑ k : Fin 256, fr k * wih k c) + bih c

variable (fz : Fin 256 → EReal) (fj : EReal)

/-- The hidden-side gate pre-activations at gate column `c`, of a hidden row `fz`. -/
def gh (c : Fin 768) : EReal := (∑ k : Fin 256, fz k * whh k c) + bhh c

/-- The reset gate. -/
def rGate (j : Fin 256) : EReal := Ideal.logistic (gi fr wih bih (g0 j) + gh whh bhh fz (g0 j))

/-- The update gate. -/
def uGate (j : Fin 256) : EReal := Ideal.logistic (gi fr wih bih (g1 j) + gh whh bhh fz (g1 j))

/-- The candidate state. -/
def cand (j : Fin 256) : EReal :=
  Ideal.tanh (gi fr wih bih (g2 j) + rGate fr wih whh bih bhh fz j * gh whh bhh fz (g2 j))

/-- The GRU cell's new hidden state at feature `j`, of an input row `fr`, a hidden row `fz` and the hidden row's
    own entry `fj` at `j`. -/
def gruCell (j : Fin 256) : EReal :=
  (one - uGate fr wih whh bih bhh fz j) * cand fr wih whh bih bhh fz j + uGate fr wih whh bih bhh fz j * fj

/-- The whole row function: the GRU cell on the fused hidden row. -/
def cell (j : Fin 256) : EReal :=
  gruCell fr wih whh bih bhh (fuse hr h2r wz bz) (fuse hr h2r wz bz j) j

end Cell

end Cert.GatedGru

end
-- ==== Proof.ArraySpec.lean ====
/-
  The result array as one function of the nine argument arrays.

  Entry (n, j) of the result is the row function `cell` of row `n` of the three node arrays `f`, `h_v`, `h_v_` and of
  the weights, each weight read at the transposed position (the programs multiply by the weights' transposes) and
  each bias read along its one axis.
-/
import proofs.«114205_j65833258713547_1_alg».proof.Proof.RowSpec
import Idealize.ShloMosaic.Lib.ValueIdx

noncomputable section

namespace Cert.GatedGru

open Idealize.ShloMosaic Idealize.ShloMosaic.ValueIdx

/-- Entry `(n, j)` of the result: the row function of row `n` of the node arrays and of the weights. -/
def entry (a0 a1 a2 : (⟨2, ![200000, 256]⟩ : Shape).Idx → EReal) (a3 : (⟨2, ![256, 1024]⟩ : Shape).Idx → EReal)
    (a4 : (⟨1, ![256]⟩ : Shape).Idx → EReal) (a5 a6 : (⟨2, ![768, 256]⟩ : Shape).Idx → EReal)
    (a7 a8 : (⟨1, ![768]⟩ : Shape).Idx → EReal) (n : Fin 200000) (j : Fin 256) : EReal :=
  cell (fun k => a0 (ix2 n k)) (fun k => a1 (ix2 n k)) (fun k => a2 (ix2 n k)) (fun k q => a3 (ix2 q k)) (fun q => a4 (ix1 q))
    (fun k c => a5 (ix2 c k)) (fun k c => a6 (ix2 c k)) (fun c => a7 (ix1 c)) (fun c => a8 (ix1 c)) j

/-- The result array. -/
def result (a0 a1 a2 : (⟨2, ![200000, 256]⟩ : Shape).Idx → EReal) (a3 : (⟨2, ![256, 1024]⟩ : Shape).Idx → EReal)
    (a4 : (⟨1, ![256]⟩ : Shape).Idx → EReal) (a5 a6 : (⟨2, ![768, 256]⟩ : Shape).Idx → EReal)
    (a7 a8 : (⟨1, ![768]⟩ : Shape).Idx → EReal) : (⟨2, ![200000, 256]⟩ : Shape).Idx → EReal :=
  fun i => entry a0 a1 a2 a3 a4 a5 a6 a7 a8 (i 0) (i 1)

theorem result_ix2 (a0 a1 a2 : (⟨2, ![200000, 256]⟩ : Shape).Idx → EReal) (a3 : (⟨2, ![256, 1024]⟩ : Shape).Idx → EReal)
    (a4 : (⟨1, ![256]⟩ : Shape).Idx → EReal) (a5 a6 : (⟨2, ![768, 256]⟩ : Shape).Idx → EReal)
    (a7 a8 : (⟨1, ![768]⟩ : Shape).Idx → EReal) (n : Fin 200000) (j : Fin 256) :
    result a0 a1 a2 a3 a4 a5 a6 a7 a8 (ix2 n j) = entry a0 a1 a2 a3 a4 a5 a6 a7 a8 n j := rfl

end Cert.GatedGru

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.BodyFuse.lean ====
/-
  The fused hidden state, kernel side, one entry at a time.

  Over the extended reals the kernel body's fused block at entry (p, q) is

    z = logistic (((Σₖ h k · w (k) q + Σₖ h' k · w (256+k) q) + Σₖ (h k − h' k) · w (512+k) q)
                    + Σₖ (h k · h' k) · w (768+k) q + b q)
    z · h q + (1 − z) · h' q

  where h, h' are row p of the two hidden blocks, w the 1024×256 weight and b the bias row: each of the four
  products into the zero accumulator is the sum over the 256 contracted positions of the left block's entry times
  the entry of the corresponding 256-row slice of the weight (the format changes are the identity on extended
  reals), and the broadcast bias reads the bias row at column q.
-/
import proofs.«114205_j65833258713547_1_alg».proof.Proof.RowSpec
import proofs.«114205_j65833258713547_1_alg».proof.Proof.LibPlainDot
import proofs.«114205_j65833258713547_1_alg».proof.Proof.Gen.KernelIdeal.Skeleton
import Idealize.ShloMosaic.Lib.ValueIdx
import Idealize.ShloMosaic.Lib.Pipeline.Value

noncomputable section

namespace Cert.GatedGru.BodyFuse

open Idealize.ShloMosaic Idealize.ShloMosaic.ValueIdx Cert.KernelIdeal Cert.KernelIdeal.Gen Cert.GatedGru

/-- The program's dimension record for the 1000×256 by 256×256 product is the plain one. -/
theorem rec_eq : dot_S1000x256_S256x256_S1000x256_1_0_0_1_n_n = DotDims.plain 1000 256 256 := rfl

/-- A product into the zero accumulator, at entry (p, q). -/
theorem mm_apply (l : FVec Ideal S1000x256 .bf16) (r : FVec Ideal S256x256 .bf16) (p : Fin 1000) (q : Fin 256) :
    matmul (F := Ideal) dot_S1000x256_S256x256_S1000x256_1_0_0_1_n_n none l r (constant S1000x256 .f32 0x00000000#32) (ix2 p q)
      = ∑ k : Fin 256, l (ix2 p k) * r (ix2 k q) := by
  rw [rec_eq]
  exact Cert.Lib.PlainDot.matmul_zero_apply none l r p q

/-- A 256-row slice of a 1024×256 array starting at row o, at entry (k, q), is the array at (o + k, q). -/
theorem slice_apply {α : Type} (o : Nat) (x : S1024x256.Idx → α) (h : S1024x256.Slices ![o, 0] S256x256)
    (k q : Fin 256) (k' : Fin 1024) (hk' : k'.val = o + k.val) :
    extractStridedSlice S256x256 ![o, 0] x h (ix2 k q) = x (ix2 k' q) := by
  refine extractStridedSlice_apply ![o, 0] x h (ix2 k q) (ix2 k' q) fun a => ?_
  match a with
  | ⟨0, _⟩ => exact hk'
  | ⟨1, _⟩ => exact (Nat.zero_add _).symm

/-- The 256-row slice, starting at row o, of the truncated weight, at entry (k, q): the weight itself at (o + k, q). -/
theorem wslice_apply (o : Nat) (v10 : Vec Ideal S1024x256 .f32) (h : S1024x256.Slices ![o, 0] S256x256)
    (k q : Fin 256) (k' : Fin 1024) (hk' : k'.val = o + k.val) :
    extractStridedSlice S256x256 ![o, 0]
        (truncf .bf16 (shapeCast S1024x256 v10 shapeCasts_S1024x256_S1024x256) bitsLt_bf16_f32 : FVec Ideal S1024x256 .bf16) h (ix2 k q)
      = v10 (ix2 k' q) := by
  rw [slice_apply o _ h k q k' hk', shapeCast_self]
  rfl

/-- The bias row broadcast over the 1000 rows, at entry (p, q). -/
theorem bias_apply (v24 : Vec Ideal S1x256 .f32) (p : Fin 1000) (q : Fin 256) :
    broadcastTo S1000x256 (shapeCast S1x256 v24 shapeCasts_S1x256_S1x256) broadcasts_S1x256_S1000x256 (ix2 p q)
      = v24 (ix2 (0 : Fin 1) q) := by
  rw [shapeCast_self]
  refine broadcastTo_apply v24 broadcasts_S1x256_S1000x256 (ix2 p q) (ix2 (0 : Fin 1) q) fun a => ?_
  match a with
  | ⟨0, _⟩ => rfl
  | ⟨1, _⟩ => rfl

/-- The product of a truncated left block against the 256-row slice of the truncated weight starting at row o,
    into the zero accumulator, at entry (p, q): the sum over the 256 contracted positions, the weight read at the
    rows c k = o + k. -/
theorem chunk_apply (o : Nat) (c : Fin 256 → Fin 1024) (hc : ∀ k, (c k).val = o + k.val)
    (l : FVec Ideal S1000x256 .f32) (v10 : Vec Ideal S1024x256 .f32) (h : S1024x256.Slices ![o, 0] S256x256)
    (p : Fin 1000) (q : Fin 256) :
    matmul (F := Ideal) dot_S1000x256_S256x256_S1000x256_1_0_0_1_n_n none (truncf .bf16 l bitsLt_bf16_f32)
        (extractStridedSlice S256x256 ![o, 0]
          (truncf .bf16 (shapeCast S1024x256 v10 shapeCasts_S1024x256_S1024x256) bitsLt_bf16_f32) h)
        (constant S1000x256 .f32 0x00000000#32) (ix2 p q)
      = ∑ k : Fin 256, l (ix2 p k) * v10 (ix2 (c k) q) := by
  rw [mm_apply]
  refine Finset.sum_congr rfl fun k _ => ?_
  rw [wslice_apply o v10 h k q (c k) (hc k)]
  rfl

/-- The kernel body's fused block at entry (p, q) is the fused hidden state of row p at feature q. -/
theorem fuse_body (v0 v1 : Vec Ideal S1000x256 .f32) (v10 : Vec Ideal S1024x256 .f32) (v24 : Vec Ideal S1x256 .f32) (p : Fin 1000) (q : Fin 256) :
    k0_pay3 (F := Ideal) v0 v1 v10 v24 (ix2 p q)
      = fuse (fun k => v0 (ix2 p k)) (fun k => v1 (ix2 p k)) (fun k j => v10 (ix2 k j)) (fun j => v24 (ix2 (0 : Fin 1) j)) q := by
  unfold k0_pay3
  simp only [addf_apply, mulf_apply, subf_apply, broadcast_apply, logistic]
  rw [chunk_apply 0 c0 (fun k => (Nat.zero_add _).symm) v0 v10 slices_S1024x256_o0_0_S256x256 p q,
    chunk_apply 256 c1 (fun _ => rfl) v1 v10 slices_S1024x256_o256_0_S256x256 p q,
    chunk_apply 512 c2 (fun _ => rfl) (subf v0 v1) v10 slices_S1024x256_o512_0_S256x256 p q,
    chunk_apply 768 c3 (fun _ => rfl) (mulf v0 v1) v10 slices_S1024x256_o768_0_S256x256 p q,
    bias_apply v24 p q]
  rfl

end Cert.GatedGru.BodyFuse

end
-- ==== Proof.BodyGru.lean ====
/-
  The GRU cell of the kernel body, read one entry at a time.

  Over the extended reals the body's last value is, at row `p` and feature `q`,

    (1 − u) · n + u · h q,     u = logistic (gi (256+q) + gh (256+q)),   r = logistic (gi q + gh q),
                               n = tanh (gi (512+q) + r · gh (512+q)),

  where `gi c = Σₖ f p k · wih k c + bih c` and `gh c = Σₖ hz p k · whh k c + bhh c` are the two gate blocks
  (a matrix product into the zero accumulator plus the bias row broadcast down the rows), cut into thirds
  along the gate axis at columns 0, 256 and 512. This is `gruCell` of the row specification at the rows
  `f p ·`, `hz p ·` and the entry `h p q`.
-/
import proofs.«114205_j65833258713547_1_alg».proof.Proof.RowSpec
import proofs.«114205_j65833258713547_1_alg».proof.Proof.LibPlainDot
import proofs.«114205_j65833258713547_1_alg».proof.Proof.Gen.KernelIdeal.Skeleton
import Idealize.ShloMosaic.Lib.ValueIdx
import Idealize.ShloMosaic.Lib.Pipeline.Value

noncomputable section

namespace Cert.GatedGru.BodyGru

open Idealize.ShloMosaic Idealize.ShloMosaic.ValueIdx Cert.KernelIdeal Cert.KernelIdeal.Gen Cert.GatedGru

/-- The body's dimension record is the plain 1000×256 by 256×768 product's. -/
theorem rec_eq : dot_S1000x256_S256x768_S1000x768_1_0_0_1_n_n = DotDims.plain 1000 256 768 := rfl

/-- A bias row broadcast down the rows, read at `(p, c)`, is the row's entry `c`. -/
theorem bias_apply (b : Vec Ideal S1x768 .f32) (hc : S1x768.ShapeCasts S1x768) (hb : S1x768.Broadcasts S1000x768)
    (p : Fin 1000) (c : Fin 768) :
    broadcastTo S1000x768 (shapeCast S1x768 b hc) hb (ix2 p c) = b (ix2 (0 : Fin 1) c) := by
  rw [shapeCast_self]
  refine broadcastTo_apply b hb (ix2 p c) (ix2 (0 : Fin 1) c) fun a => ?_
  match a with
  | ⟨0, _⟩ => rfl
  | ⟨1, _⟩ => rfl

/-- A gate block — the product into the zero accumulator plus the broadcast bias — at row `p`, gate column `c`. -/
theorem gate_apply {φ₁ φ₂ : FTy} (l : FVec Ideal S1000x256 φ₁) (w : FVec Ideal S256x768 φ₂) (b : Vec Ideal S1x768 .f32)
    (hc : S1x768.ShapeCasts S1x768) (hb : S1x768.Broadcasts S1000x768) (p : Fin 1000) (c : Fin 768) :
    addf (matmul (F := Ideal) dot_S1000x256_S256x768_S1000x768_1_0_0_1_n_n none l w (constant (F := Ideal) S1000x768 .f32 0x00000000#32))
        (broadcastTo S1000x768 (shapeCast S1x768 b hc) hb) (ix2 p c)
      = (∑ k : Fin 256, (l (ix2 p k) : EReal) * (w (ix2 k c) : EReal)) + (b (ix2 (0 : Fin 1) c) : EReal) := by
  rw [addf_apply, bias_apply]
  refine congrArg (· + (b (ix2 (0 : Fin 1) c) : EReal)) ?_
  exact Cert.Lib.PlainDot.matmul_zero_apply (M := 1000) (K := 256) (N := 768) none l w p c

/-- The first third of the gate axis. -/
theorem slice0_apply {α : Type} (x : S1000x768.Idx → α) (h : S1000x768.Slices ![0, 0] S1000x256) (p : Fin 1000) (q : Fin 256) :
    extractStridedSlice S1000x256 ![0, 0] x h (ix2 p q) = x (ix2 p (g0 q)) := by
  refine extractStridedSlice_apply ![0, 0] x h (ix2 p q) (ix2 p (g0 q)) fun a => ?_
  match a with
  | ⟨0, _⟩ => exact (Nat.zero_add _).symm
  | ⟨1, _⟩ => exact (Nat.zero_add _).symm

/-- The second third of the gate axis. -/
theorem slice1_apply {α : Type} (x : S1000x768.Idx → α) (h : S1000x768.Slices ![0, 256] S1000x256) (p : Fin 1000) (q : Fin 256) :
    extractStridedSlice S1000x256 ![0, 256] x h (ix2 p q) = x (ix2 p (g1 q)) := by
  refine extractStridedSlice_apply ![0, 256] x h (ix2 p q) (ix2 p (g1 q)) fun a => ?_
  match a with
  | ⟨0, _⟩ => exact (Nat.zero_add _).symm
  | ⟨1, _⟩ => rfl

/-- The last third of the gate axis. -/
theorem slice2_apply {α : Type} (x : S1000x768.Idx → α) (h : S1000x768.Slices ![0, 512] S1000x256) (p : Fin 1000) (q : Fin 256) :
    extractStridedSlice S1000x256 ![0, 512] x h (ix2 p q) = x (ix2 p (g2 q)) := by
  refine extractStridedSlice_apply ![0, 512] x h (ix2 p q) (ix2 p (g2 q)) fun a => ?_
  match a with
  | ⟨0, _⟩ => exact (Nat.zero_add _).symm
  | ⟨1, _⟩ => rfl

/-- The logistic function and the hyperbolic tangent act entry by entry. -/
theorem logistic_apply {s : Shape} {φ : FTy} (x : FVec Ideal s φ) (i : s.Idx) : logistic x i = Ideal.logistic (x i) := rfl

theorem tanh_apply {s : Shape} {φ : FTy} (x : FVec Ideal s φ) (i : s.Idx) : tanh x i = Ideal.tanh (x i) := rfl

/-- The body's last value at row `p`, feature `q` is the GRU cell of the row specification, at the input row
    `v9 p ·`, the hidden row `v34 p ·` and the hidden entry `v33 p q`. -/
theorem gru_body (v9 : FVec Ideal S1000x256 .bf16) (v33 : FVec Ideal S1000x256 .f32) (v34 : FVec Ideal S1000x256 .bf16)
    (v37 : FVec Ideal S256x768 .bf16) (v39 : FVec Ideal S256x768 .f32) (v42 v47 : Vec Ideal S1x768 .f32) (p : Fin 1000) (q : Fin 256) :
    k0_pay1 (F := Ideal) v9 v33 v34 v37 v39 v42 v47 (ix2 p q)
      = gruCell (fun k => v9 (ix2 p k)) (fun k c => v37 (ix2 k c)) (fun k c => v39 (ix2 k c)) (fun c => v42 (ix2 (0 : Fin 1) c)) (fun c => v47 (ix2 (0 : Fin 1) c))
          (fun k => v34 (ix2 p k)) (v33 (ix2 p q)) q := by
  have hgi : ∀ c : Fin 768,
      matmul (F := Ideal) dot_S1000x256_S256x768_S1000x768_1_0_0_1_n_n none v9 v37 (constant (F := Ideal) S1000x768 .f32 0x00000000#32) (ix2 p c)
          + broadcastTo S1000x768 (shapeCast S1x768 v42 shapeCasts_S1x768_S1x768) broadcasts_S1x768_S1000x768 (ix2 p c)
        = gi (fun k => v9 (ix2 p k)) (fun k c => v37 (ix2 k c)) (fun c => v42 (ix2 (0 : Fin 1) c)) c :=
    fun c => gate_apply v9 v37 v42 _ _ p c
  have hgh : ∀ c : Fin 768,
      matmul (F := Ideal) dot_S1000x256_S256x768_S1000x768_1_0_0_1_n_n none v34 (truncf .bf16 v39 bitsLt_bf16_f32) (constant (F := Ideal) S1000x768 .f32 0x00000000#32) (ix2 p c)
          + broadcastTo S1000x768 (shapeCast S1x768 v47 shapeCasts_S1x768_S1x768) broadcasts_S1x768_S1000x768 (ix2 p c)
        = gh (fun k c => v39 (ix2 k c)) (fun c => v47 (ix2 (0 : Fin 1) c)) (fun k => v34 (ix2 p k)) c :=
    fun c => gate_apply v34 (truncf .bf16 v39 bitsLt_bf16_f32) v47 _ _ p c
  unfold k0_pay1
  simp only [addf_apply, mulf_apply, subf_apply, broadcast_apply, logistic_apply, tanh_apply,
    slice0_apply, slice1_apply, slice2_apply]
  simp only [hgi, hgh]
  rfl

end Cert.GatedGru.BodyGru

end
-- ==== Proof.BodyRow.lean ====
/-
  The kernel body's stored block, entry by entry, is the row function of the rows of its input blocks.

  The body stores one value through one rectangle that is the whole 1000 × 256 output block, and loads each input
  block whole, so the stored block is the body's arithmetic of the loaded blocks. Entry `(p, q)` of it is the GRU
  cell (read in its own module) over the fused hidden state (read in its own module) of row `p` of the node blocks;
  changes of float format are the identity on the extended reals.
-/
import proofs.«114205_j65833258713547_1_alg».proof.Proof.Gen.KernelIdeal.Frame
import proofs.«114205_j65833258713547_1_alg».proof.Proof.RowSpec
import proofs.«114205_j65833258713547_1_alg».proof.Proof.BodyFuse
import proofs.«114205_j65833258713547_1_alg».proof.Proof.BodyGru
import Idealize.ShloMosaic.Lib.ValueIdx
import Idealize.ShloMosaic.Lib.Pipeline.Value

noncomputable section

namespace Cert.GatedGru.Body

open Idealize.ShloMosaic Idealize.ShloMosaic.ValueIdx Cert.KernelIdeal Cert.KernelIdeal.Gen Cert.GatedGru

theorem hz : (![0, 0] : Fin 2 → Nat) = fun _ => 0 := funext fun a => by fin_cases a <;> rfl

theorem body_row (x0 x1 x2 : Vec Ideal S1000x256 .f32) (x3 : Vec Ideal S1024x256 .f32) (x4 x5 : Vec Ideal S256x768 .f32)
    (x6 : Vec Ideal S1x256 .f32) (x7 x8 : Vec Ideal S1x768 .f32) (p : Fin 1000) (q : Fin 256) :
    out0_9 (F := Ideal) x0 x1 x2 x3 x4 x5 x6 x7 x8 (ix2 p q)
      = cell (fun k => x0 (ix2 p k)) (fun k => x1 (ix2 p k)) (fun k => x2 (ix2 p k)) (fun k j => x3 (ix2 k j))
          (fun j => x6 (ix2 (0 : Fin 1) j)) (fun k c => x4 (ix2 k c)) (fun k c => x5 (ix2 k c))
          (fun c => x7 (ix2 (0 : Fin 1) c)) (fun c => x8 (ix2 (0 : Fin 1) c)) q := by
  unfold out0_9
  rw [View.canon_unit_zero hz]
  simp only [View.ld_unit_zero (S := S1000x256) hz, View.ld_unit_zero (S := S1024x256) hz,
    View.ld_unit_zero (S := S256x768) hz, View.ld_unit_zero (S := S1x256) hz, View.ld_unit_zero (S := S1x768) hz]
  rw [Cert.GatedGru.BodyGru.gru_body]
  unfold cell
  have e9 : (fun k : Fin 256 => k0_pay2 (F := Ideal) x0 (ix2 p k)) = fun k => x0 (ix2 p k) := rfl
  have e37 : (fun (k : Fin 256) (c : Fin 768) => k0_pay5 (F := Ideal) x4 (ix2 k c)) = fun k c => x4 (ix2 k c) := by
    funext k c; unfold k0_pay5; rw [shapeCast_self]; rfl
  have e39 : (fun (k : Fin 256) (c : Fin 768) => k0_pay6 (F := Ideal) x5 (ix2 k c)) = fun k c => x5 (ix2 k c) := by
    funext k c; unfold k0_pay6; rw [shapeCast_self]
  have e34 : (fun k : Fin 256 => k0_pay4 (F := Ideal) x1 x2 x3 x6 (ix2 p k))
      = fuse (fun k => x1 (ix2 p k)) (fun k => x2 (ix2 p k)) (fun k j => x3 (ix2 k j)) (fun j => x6 (ix2 (0 : Fin 1) j)) := by
    funext k
    exact Cert.GatedGru.BodyFuse.fuse_body x1 x2 x3 x6 p k
  rw [e9, e37, e39, e34, Cert.GatedGru.BodyFuse.fuse_body]

end Cert.GatedGru.Body

end
-- ==== Proof.Blocks.lean ====
/-
  From blocks to the array.

  The grid has 200 points; point `t` reads rows `1000 t … 1000 t + 999` of the three node arrays, the whole of each
  weight (transposed, or laid as one row, by the host operations before the call), and writes rows
  `1000 t … 1000 t + 999` of the result. So what point `t` writes back is block `t` of the one array `result`, the 200
  blocks cover the result array, and the array after the run is `result` of the arguments.
-/
import proofs.«114205_j65833258713547_1_alg».proof.Proof.Gen.KernelIdeal.Value
import proofs.«114205_j65833258713547_1_alg».proof.Proof.ArraySpec
import proofs.«114205_j65833258713547_1_alg».proof.Proof.BodyRow
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value Cert.GatedGru

variable (m : (ℓ : Loc nD τ sig) → Buf (Elt Ideal) ℓ) (ρ : Dev nD → PrngReg)

/-- The printed index maps over the grid: the node arrays' and the result's blocks move down the rows with the
    point, every weight's block stays at the origin. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

theorem N_eq : cfg0.N = 200 := N_0

/-- Row `p` of the `f` block at point `t` is row `1000 t + p` of `f`. -/
theorem iblk0_apply (c : Dev nD) (t : Fin cfg0.N) (x : S1000x256.Idx) (k : S200000x256.Idx)
    (hk0 : (k 0).val = t.val * 1000 + (x 0).val) (hk1 : (k 1).val = (x 1).val) :
    (iblk m c 0 t : Vec Ideal S1000x256 .f32) x = (m ((c : Thread nD τ).loc main_arg0) : S200000x256.Idx → Elt Ideal .f32) k := by
  obtain ⟨⟨e0, e1⟩, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 1000 + 1 * (x 0).val = (k 0).val; rw [e0, hk0]; omega
  | ⟨1, _⟩ => show win0_0.index t 1 * 256 + 1 * (x 1).val = (k 1).val; rw [e1, hk1]; omega

/-- Row `p` of the `h_v` block at point `t` is row `1000 t + p` of `h_v`. -/
theorem iblk1_apply (c : Dev nD) (t : Fin cfg0.N) (x : S1000x256.Idx) (k : S200000x256.Idx)
    (hk0 : (k 0).val = t.val * 1000 + (x 0).val) (hk1 : (k 1).val = (x 1).val) :
    (iblk m c 1 t : Vec Ideal S1000x256 .f32) x = (m ((c : Thread nD τ).loc main_arg1) : S200000x256.Idx → Elt Ideal .f32) k := by
  obtain ⟨-, ⟨e0, e1⟩, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 1000 + 1 * (x 0).val = (k 0).val; rw [e0, hk0]; omega
  | ⟨1, _⟩ => show win0_1.index t 1 * 256 + 1 * (x 1).val = (k 1).val; rw [e1, hk1]; omega

/-- Row `p` of the `h_v_` block at point `t` is row `1000 t + p` of `h_v_`. -/
theorem iblk2_apply (c : Dev nD) (t : Fin cfg0.N) (x : S1000x256.Idx) (k : S200000x256.Idx)
    (hk0 : (k 0).val = t.val * 1000 + (x 0).val) (hk1 : (k 1).val = (x 1).val) :
    (iblk m c 2 t : Vec Ideal S1000x256 .f32) x = (m ((c : Thread nD τ).loc main_arg2) : S200000x256.Idx → Elt Ideal .f32) k := by
  obtain ⟨-, -, ⟨e0, e1⟩, -⟩ := idx_facts t
  unfold iblk
  rw [View.read_apply]
  show V m c main_arg2 _ = m (c.tc.loc main_arg2) _
  rw [V_main_arg2]
  congr 1
  funext a
  apply Fin.ext
  match a with
  | ⟨0, _⟩ => show win0_2.index t 0 * 1000 + 1 * (x 0).val = (k 0).val; rw [e0, hk0]; omega
  | ⟨1, _⟩ => show win0_2.index t 1 * 256 + 1 * (x 1).val = (k 1).val; rw [e1, hk1]; omega

/-! ## The arrays the host operations before the call write -/

/-- The fuse weight as the call finds it: transposed. -/
theorem V_v0 (c : Dev nD) : (V m c main_v0 : S1024x256.Idx → Elt Ideal .f32)
    = transpose S1024x256 [1, 0] (m ((c : Thread nD τ).loc main_arg3)) transposes_S256x1024_S1024x256_1_0 := by
  dsimp only [V, hostOps0]; after_results

/-- The input weight as the call finds it: transposed. -/
theorem V_v1 (c : Dev nD) : (V m c main_v1 : S256x768.Idx → Elt Ideal .f32)
    = transpose S256x768 [1, 0] (m ((c : Thread nD τ).loc main_arg5)) transposes_S768x256_S256x768_1_0 := by
  dsimp only [V, hostOps0]; after_results

/-- The hidden weight as the call finds it: transposed. -/
theorem V_v2 (c : Dev nD) : (V m c main_v2 : S256x768.Idx → Elt Ideal .f32)
    = transpose S256x768 [1, 0] (m ((c : Thread nD τ).loc main_arg6)) transposes_S768x256_S256x768_1_0 := by
  dsimp only [V, hostOps0]; after_results

/-- The fuse bias as the call finds it: one row. -/
theorem V_v3 (c : Dev nD) : (V m c main_v3 : S1x256.Idx → Elt Ideal .f32)
    = shapeCast S1x256 (m ((c : Thread nD τ).loc main_arg4)) shapeCasts_S256_S1x256 := by
  dsimp only [V, hostOps0]; after_results; rfl

/-- The input bias as the call finds it: one row. -/
theorem V_v4 (c : Dev nD) : (V m c main_v4 : S1x768.Idx → Elt Ideal .f32)
    = shapeCast S1x768 (m ((c : Thread nD τ).loc main_arg7)) shapeCasts_S768_S1x768 := by
  dsimp only [V, hostOps0]; after_results; rfl

/-- The hidden bias as the call finds it: one row. -/
theorem V_v5 (c : Dev nD) : (V m c main_v5 : S1x768.Idx → Elt Ideal .f32)
    = shapeCast S1x768 (m ((c : Thread nD τ).loc main_arg8)) shapeCasts_S768_S1x768 := by
  dsimp only [V, hostOps0]; after_results; rfl

/-! ## The weights' blocks: each is its whole array -/

/-- Entry `(k, j)` of the fuse weight's block is entry `(j, k)` of the fuse weight. -/
theorem iblk3_apply (c : Dev nD) (t : Fin cfg0.N) (x : S1024x256.Idx) (k : S256x1024.Idx)
    (hk0 : (k 0).val = (x 1).val) (hk1 : (k 1).val = (x 0).val) :
    (iblk m c 3 t : Vec Ideal S1024x256 .f32) x = (m ((c : Thread nD τ).loc main_arg3) : S256x1024.Idx → Elt Ideal .f32) k := by
  obtain ⟨-, -, -, ⟨e0, e1⟩, -⟩ := idx_facts t
  unfold iblk
  rw [View.read_apply]
  show V m c main_v0 _ = m (c.tc.loc main_arg3) _
  rw [V_v0]
  refine transpose_apply [1, 0] _ _ _ k fun b => ?_
  match b with
  | ⟨0, _⟩ => show (k 1).val = win0_3.index t 0 * 1024 + 1 * (x 0).val; rw [e0, hk1]; omega
  | ⟨1, _⟩ => show (k 0).val = win0_3.index t 1 * 256 + 1 * (x 1).val; rw [e1, hk0]; omega

/-- Entry `(k, c)` of the input weight's block is entry `(c, k)` of the input weight. -/
theorem iblk4_apply (c : Dev nD) (t : Fin cfg0.N) (x : S256x768.Idx) (k : S768x256.Idx)
    (hk0 : (k 0).val = (x 1).val) (hk1 : (k 1).val = (x 0).val) :
    (iblk m c 4 t : Vec Ideal S256x768 .f32) x = (m ((c : Thread nD τ).loc main_arg5) : S768x256.Idx → Elt Ideal .f32) k := by
  obtain ⟨-, -, -, -, ⟨e0, e1⟩, -⟩ := idx_facts t
  unfold iblk
  rw [View.read_apply]
  show V m c main_v1 _ = m (c.tc.loc main_arg5) _
  rw [V_v1]
  refine transpose_apply [1, 0] _ _ _ k fun b => ?_
  match b with
  | ⟨0, _⟩ => show (k 1).val = win0_4.index t 0 * 256 + 1 * (x 0).val; rw [e0, hk1]; omega
  | ⟨1, _⟩ => show (k 0).val = win0_4.index t 1 * 768 + 1 * (x 1).val; rw [e1, hk0]; omega

/-- Entry `(k, c)` of the hidden weight's block is entry `(c, k)` of the hidden weight. -/
theorem iblk5_apply (c : Dev nD) (t : Fin cfg0.N) (x : S256x768.Idx) (k : S768x256.Idx)
    (hk0 : (k 0).val = (x 1).val) (hk1 : (k 1).val = (x 0).val) :
    (iblk m c 5 t : Vec Ideal S256x768 .f32) x = (m ((c : Thread nD τ).loc main_arg6) : S768x256.Idx → Elt Ideal .f32) k := by
  obtain ⟨-, -, -, -, -, ⟨e0, e1⟩, -⟩ := idx_facts t
  unfold iblk
  rw [View.read_apply]
  show V m c main_v2 _ = m (c.tc.loc main_arg6) _
  rw [V_v2]
  refine transpose_apply [1, 0] _ _ _ k fun b => ?_
  match b with
  | ⟨0, _⟩ => show (k 1).val = win0_5.index t 0 * 256 + 1 * (x 0).val; rw [e0, hk1]; omega
  | ⟨1, _⟩ => show (k 0).val = win0_5.index t 1 * 768 + 1 * (x 1).val; rw [e1, hk0]; omega

/-- Entry `(0, j)` of the fuse bias's block is entry `j` of the fuse bias. -/
theorem iblk6_apply (c : Dev nD) (t : Fin cfg0.N) (x : S1x256.Idx) (k : S256.Idx) (hk : (k 0).val = (x 1).val) :
    (iblk m c 6 t : Vec Ideal S1x256 .f32) x = (m ((c : Thread nD τ).loc main_arg4) : S256.Idx → Elt Ideal .f32) k := by
  obtain ⟨-, -, -, -, -, -, ⟨e0, e1⟩, -⟩ := idx_facts t
  unfold iblk
  rw [View.read_apply]
  show V m c main_v3 _ = m (c.tc.loc main_arg4) _
  rw [V_v3]
  refine shapeCast_apply _ _ _ k ?_
  rw [Shape.rowMajor_val_one, Shape.rowMajor_val_two]
  show (k 0).val = (win0_6.index t 0 * 1 + 1 * (x 0).val) * 256 + (win0_6.index t 1 * 256 + 1 * (x 1).val)
  have h0 : (x 0).val < 1 := (x 0).isLt
  rw [e0, e1, hk]; omega

/-- Entry `(0, c)` of the input bias's block is entry `c` of the input bias. -/
theorem iblk7_apply (c : Dev nD) (t : Fin cfg0.N) (x : S1x768.Idx) (k : S768.Idx) (hk : (k 0).val = (x 1).val) :
    (iblk m c 7 t : Vec Ideal S1x768 .f32) x = (m ((c : Thread nD τ).loc main_arg7) : S768.Idx → Elt Ideal .f32) k := by
  obtain ⟨-, -, -, -, -, -, -, ⟨e0, e1⟩, -⟩ := idx_facts t
  unfold iblk
  rw [View.read_apply]
  show V m c main_v4 _ = m (c.tc.loc main_arg7) _
  rw [V_v4]
  refine shapeCast_apply _ _ _ k ?_
  rw [Shape.rowMajor_val_one, Shape.rowMajor_val_two]
  show (k 0).val = (win0_7.index t 0 * 1 + 1 * (x 0).val) * 768 + (win0_7.index t 1 * 768 + 1 * (x 1).val)
  have h0 : (x 0).val < 1 := (x 0).isLt
  rw [e0, e1, hk]; omega

/-- Entry `(0, c)` of the hidden bias's block is entry `c` of the hidden bias. -/
theorem iblk8_apply (c : Dev nD) (t : Fin cfg0.N) (x : S1x768.Idx) (k : S768.Idx) (hk : (k 0).val = (x 1).val) :
    (iblk m c 8 t : Vec Ideal S1x768 .f32) x = (m ((c : Thread nD τ).loc main_arg8) : S768.Idx → Elt Ideal .f32) k := by
  obtain ⟨-, -, -, -, -, -, -, -, ⟨e0, e1⟩, -⟩ := idx_facts t
  unfold iblk
  rw [View.read_apply]
  show V m c main_v5 _ = m (c.tc.loc main_arg8) _
  rw [V_v5]
  refine shapeCast_apply _ _ _ k ?_
  rw [Shape.rowMajor_val_one, Shape.rowMajor_val_two]
  show (k 0).val = (win0_8.index t 0 * 1 + 1 * (x 0).val) * 768 + (win0_8.index t 1 * 768 + 1 * (x 1).val)
  have h0 : (x 0).val < 1 := (x 0).isLt
  rw [e0, e1, hk]; omega

/-! ## What a point writes back -/

/-- The body's stored block over blocks that are rows `1000 T + p` of the node arrays and the whole weights, at an
    entry, is the result array at the entry `1000 T` rows further down. -/
theorem stored_at (a0 a1 a2 : S200000x256.Idx → EReal) (a3 : S256x1024.Idx → EReal) (a4 : S256.Idx → EReal)
    (a5 a6 : S768x256.Idx → EReal) (a7 a8 : S768.Idx → EReal)
    (x0 x1 x2 : Vec Ideal S1000x256 .f32) (x3 : Vec Ideal S1024x256 .f32) (x4 x5 : Vec Ideal S256x768 .f32)
    (x6 : Vec Ideal S1x256 .f32) (x7 x8 : Vec Ideal S1x768 .f32) (T : Nat)
    (h0 : ∀ (x : S1000x256.Idx) (k : S200000x256.Idx), (k 0).val = T * 1000 + (x 0).val → (k 1).val = (x 1).val → x0 x = a0 k)
    (h1 : ∀ (x : S1000x256.Idx) (k : S200000x256.Idx), (k 0).val = T * 1000 + (x 0).val → (k 1).val = (x 1).val → x1 x = a1 k)
    (h2 : ∀ (x : S1000x256.Idx) (k : S200000x256.Idx), (k 0).val = T * 1000 + (x 0).val → (k 1).val = (x 1).val → x2 x = a2 k)
    (h3 : ∀ (x : S1024x256.Idx) (k : S256x1024.Idx), (k 0).val = (x 1).val → (k 1).val = (x 0).val → x3 x = a3 k)
    (h4 : ∀ (x : S256x768.Idx) (k : S768x256.Idx), (k 0).val = (x 1).val → (k 1).val = (x 0).val → x4 x = a5 k)
    (h5 : ∀ (x : S256x768.Idx) (k : S768x256.Idx), (k 0).val = (x 1).val → (k 1).val = (x 0).val → x5 x = a6 k)
    (h6 : ∀ (x : S1x256.Idx) (k : S256.Idx), (k 0).val = (x 1).val → x6 x = a4 k)
    (h7 : ∀ (x : S1x768.Idx) (k : S768.Idx), (k 0).val = (x 1).val → x7 x = a7 k)
    (h8 : ∀ (x : S1x768.Idx) (k : S768.Idx), (k 0).val = (x 1).val → x8 x = a8 k)
    (y : S1000x256.Idx) (i : S200000x256.Idx) (hi0 : (i 0).val = T * 1000 + (y 0).val) (hi1 : (i 1).val = (y 1).val) :
    out0_9 (F := Ideal) x0 x1 x2 x3 x4 x5 x6 x7 x8 y = result a0 a1 a2 a3 a4 a5 a6 a7 a8 i := by
  obtain ⟨p, q, rfl⟩ : ∃ (p : Fin 1000) (q : Fin 256), y = ix2 p q := ⟨y 0, y 1, eq_ix2 y⟩
  obtain ⟨n, j, rfl⟩ : ∃ (n : Fin 200000) (j : Fin 256), i = ix2 n j := ⟨i 0, i 1, eq_ix2 i⟩
  have hn : n.val = T * 1000 + p.val := hi0
  obtain rfl : j = q := Fin.ext hi1
  rw [Cert.GatedGru.Body.body_row, result_ix2]
  unfold entry
  have e0 : (fun k : Fin 256 => x0 (ix2 p k)) = fun k => a0 (ix2 n k) := funext fun k => h0 _ _ hn rfl
  have e1 : (fun k : Fin 256 => x1 (ix2 p k)) = fun k => a1 (ix2 n k) := funext fun k => h1 _ _ hn rfl
  have e2 : (fun k : Fin 256 => x2 (ix2 p k)) = fun k => a2 (ix2 n k) := funext fun k => h2 _ _ hn rfl
  have e3 : (fun (k : Fin 1024) (q : Fin 256) => x3 (ix2 k q)) = fun k q => a3 (ix2 q k) :=
    funext fun k => funext fun q => h3 _ _ rfl rfl
  have e4 : (fun (k : Fin 256) (c : Fin 768) => x4 (ix2 k c)) = fun k c => a5 (ix2 c k) :=
    funext fun k => funext fun c => h4 _ _ rfl rfl
  have e5 : (fun (k : Fin 256) (c : Fin 768) => x5 (ix2 k c)) = fun k c => a6 (ix2 c k) :=
    funext fun k => funext fun c => h5 _ _ rfl rfl
  have e6 : (fun q : Fin 256 => x6 (ix2 (0 : Fin 1) q)) = fun q => a4 (ix1 q) := funext fun q => h6 _ _ rfl
  have e7 : (fun c : Fin 768 => x7 (ix2 (0 : Fin 1) c)) = fun c => a7 (ix1 c) := funext fun c => h7 _ _ rfl
  have e8 : (fun c : Fin 768 => x8 (ix2 (0 : Fin 1) c)) = fun c => a8 (ix1 c) := funext fun c => h8 _ _ rfl
  rw [e0, e1, e2, e3, e4, e5, e6, e7, e8]

/-- The result array of core `c`'s argument arrays as launched. -/
abbrev res (c : Dev nD) : S200000x256.Idx → Elt Ideal .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- WHAT POINT `t` WRITES BACK is block `t` of the result array. -/
theorem flushed_eq (c : Dev nD) (t : Fin cfg0.N) :
    (dats m 0 c).flushed 9 t = ((cfg0.win 9).blk t).view.read (Elt Ideal) (res m c) := by
  rw [flushed9]
  obtain ⟨-, -, -, -, -, -, -, -, -, ⟨e0, e1⟩⟩ := idx_facts t
  funext y
  show out0_9 (iblk m c 0 t) (iblk m c 1 t) (iblk m c 2 t) (iblk m c 3 t) (iblk m c 4 t) (iblk m c 5 t) (iblk m c 6 t)
      (iblk m c 7 t) (iblk m c 8 t) y = res m c (((cfg0.win 9).blk t).view.emb y)
  refine stored_at _ _ _ _ _ _ _ _ _ (iblk m c 0 t) (iblk m c 1 t) (iblk m c 2 t) (iblk m c 3 t) (iblk m c 4 t)
    (iblk m c 5 t) (iblk m c 6 t) (iblk m c 7 t) (iblk m c 8 t) t.val
    (fun x k h0 h1 => iblk0_apply m c t x k h0 h1) (fun x k h0 h1 => iblk1_apply m c t x k h0 h1)
    (fun x k h0 h1 => iblk2_apply m c t x k h0 h1) (fun x k h0 h1 => iblk3_apply m c t x k h0 h1)
    (fun x k h0 h1 => iblk4_apply m c t x k h0 h1) (fun x k h0 h1 => iblk5_apply m c t x k h0 h1)
    (fun x k h => iblk6_apply m c t x k h) (fun x k h => iblk7_apply m c t x k h) (fun x k h => iblk8_apply m c t x k h)
    y _ ?_ ?_
  · show win0_9.index t 0 * 1000 + 1 * (y 0).val = t.val * 1000 + (y 0).val
    rw [e0]; omega
  · show win0_9.index t 1 * 256 + 1 * (y 1).val = (y 1).val
    rw [e1]; omega

/-- An index of the result array is in point `t`'s block iff each coordinate is in the block's range on its axis. -/
theorem mem_blk (t : Fin cfg0.N) (i : S200000x256.Idx) :
    i ∈ ((cfg0.win 9).blk t).view.set ↔ ∀ a : Fin 2, win0_9.index t a * S1000x256.size a ≤ (i a).val ∧ (i a).val < win0_9.index t a * S1000x256.size a + S1000x256.size a := by
  show i ∈ ((View.whole main_v6).slice (win0_9.rect t)).set ↔ _
  rw [View.set_slice_whole, Rect.mem_set_unit]
  exact Iff.rfl

/-- Every row of the result lies in the block of the point its thousand names. -/
theorem cover (i : S200000x256.Idx) :
    ∃ t : Fin cfg0.N, (cfg0.win 9).flush t = true ∧ i ∈ ((cfg0.win 9).blk t).view.set := by
  have hi0 : (i 0).val < 200000 := (i 0).isLt
  have hi1 : (i 1).val < 256 := (i 1).isLt
  have hN : cfg0.N = 200 := N_0
  let t : Fin cfg0.N := ⟨(i 0).val / 1000, by rw [hN]; omega⟩
  obtain ⟨-, -, -, -, -, -, -, -, -, ⟨e0, e1⟩⟩ := idx_facts t
  have ht : t.val = (i 0).val / 1000 := rfl
  refine ⟨t, flush0_9 t, ?_⟩
  rw [mem_blk]
  intro a
  match a with
  | ⟨0, _⟩ => show win0_9.index t (0 : Fin 2) * 1000 ≤ (i 0).val ∧ (i 0).val < win0_9.index t (0 : Fin 2) * 1000 + 1000; rw [e0, ht]; omega
  | ⟨1, _⟩ => show win0_9.index t (1 : Fin 2) * 256 ≤ (i 1).val ∧ (i 1).val < win0_9.index t (1 : Fin 2) * 256 + 256; rw [e1]; omega

/-- THE ARRAY after the run is the result array of the arguments. -/
theorem final (c : Dev nD) : (dats m 0 c).arrAt 9 cfg0.N = res m c :=
  (dats m 0 c).arrAt_eq_of_cover 9 (res m c) (fun t _ => flushed_eq m c t) cover

/-- The run, read: the result array at `result` of the arguments, the arguments unchanged. -/
theorem run : θ_run defs (onTc (τ := τ) (main (F := Ideal))) ⟨m, fun _ => 0, ρ⟩ fun r => ∀ c : Dev nD,
      r.2.mem ((c : Thread nD τ).loc main_v6) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.Blocks

end
-- ==== Proof.RefFuse.lean ====
/-
  The reference program's fused hidden state, read one entry at a time.

  Stage 18 of the reference program is the array  z · h_v + (1 − z) · h_v_ , where z = 1 / (1 + exp (−g)) and
  g = concat [h_v, h_v_, h_v − h_v_, h_v · h_v_] · Wᵀ + b. Over the extended reals, entry (n, j) of that array is
  `fuse` of row n of h_v, row n of h_v_, the transposed weight and the bias, at feature j: the contraction over the
  concatenated axis of length 1024 is the sum of the four chunk sums (each chunk of the concatenation read at its own
  piece), and the negate / exponential / add / divide chain is the logistic function.
-/
import proofs.«114205_j65833258713547_1_alg».proof.Proof.RowSpec
import proofs.«114205_j65833258713547_1_alg».proof.Proof.Gen.ReferenceIdeal.Read

noncomputable section

namespace Cert.GatedGru.RefFuse

open Idealize.ShloMosaic Idealize.ShloMosaic.ValueIdx Cert.ReferenceIdeal Cert.ReferenceIdeal.Read Cert.GatedGru

/-- Chunk 0 of the concatenated row is the row of the first operand. -/
theorem cat0 (x1 x2 : (⟨S200000x256, .f32⟩ : BufTy).Contents (Elt Ideal)) (n : Fin 200000) (j k : Fin 256) :
    val_main_v2 (F := Ideal) x1 x2 (lidx_main_v4 (ix2 n j) (c0 k)) = x1 (ix2 n k) := by
  unfold val_main_v2
  exact concatenate_apply_piece (t := S200000x1024) 1
    [⟨S200000x256, x1⟩, ⟨S200000x256, x2⟩, ⟨S200000x256, val_main_v0 (F := Ideal) x1 x2⟩, ⟨S200000x256, val_main_v1 (F := Ideal) x1 x2⟩]
    Gen.concatenates_S200000x256_S200000x256_S200000x256_S200000x256_S200000x1024_d1 _
    0 (by show (0 : Nat) < 4; omega) S200000x256 x1 rfl rfl 0 rfl (ix2 n k)
    (fun b hb => by
      match b with
      | ⟨0, _⟩ => rfl
      | ⟨1, _⟩ => exact absurd rfl hb)
    (by show 0 + k.val = k.val; omega)

/-- Chunk 1 of the concatenated row is the row of the second operand. -/
theorem cat1 (x1 x2 : (⟨S200000x256, .f32⟩ : BufTy).Contents (Elt Ideal)) (n : Fin 200000) (j k : Fin 256) :
    val_main_v2 (F := Ideal) x1 x2 (lidx_main_v4 (ix2 n j) (c1 k)) = x2 (ix2 n k) := by
  unfold val_main_v2
  refine (concatenate_apply_piece (t := S200000x1024) 1
    [⟨S200000x256, x1⟩, ⟨S200000x256, x2⟩, ⟨S200000x256, val_main_v0 (F := Ideal) x1 x2⟩, ⟨S200000x256, val_main_v1 (F := Ideal) x1 x2⟩]
    Gen.concatenates_S200000x256_S200000x256_S200000x256_S200000x256_S200000x1024_d1 _
    1 (by show (1 : Nat) < 4; omega) S200000x256 (x2) rfl rfl 256 rfl (ix2 n k)
    (fun b hb => by
      match b with
      | ⟨0, _⟩ => rfl
      | ⟨1, _⟩ => exact absurd rfl hb)
    (by show 256 + k.val = 256 + k.val; rfl)).trans ?_
  rfl

/-- Chunk 2 of the concatenated row is the difference of the two rows. -/
theorem cat2 (x1 x2 : (⟨S200000x256, .f32⟩ : BufTy).Contents (Elt Ideal)) (n : Fin 200000) (j k : Fin 256) :
    val_main_v2 (F := Ideal) x1 x2 (lidx_main_v4 (ix2 n j) (c2 k)) = x1 (ix2 n k) - x2 (ix2 n k) := by
  unfold val_main_v2
  refine (concatenate_apply_piece (t := S200000x1024) 1
    [⟨S200000x256, x1⟩, ⟨S200000x256, x2⟩, ⟨S200000x256, val_main_v0 (F := Ideal) x1 x2⟩, ⟨S200000x256, val_main_v1 (F := Ideal) x1 x2⟩]
    Gen.concatenates_S200000x256_S200000x256_S200000x256_S200000x256_S200000x1024_d1 _
    2 (by show (2 : Nat) < 4; omega) S200000x256 (val_main_v0 (F := Ideal) x1 x2) rfl rfl 512 rfl (ix2 n k)
    (fun b hb => by
      match b with
      | ⟨0, _⟩ => rfl
      | ⟨1, _⟩ => exact absurd rfl hb)
    (by show 512 + k.val = 512 + k.val; rfl)).trans ?_
  rfl

/-- Chunk 3 of the concatenated row is the product of the two rows. -/
theorem cat3 (x1 x2 : (⟨S200000x256, .f32⟩ : BufTy).Contents (Elt Ideal)) (n : Fin 200000) (j k : Fin 256) :
    val_main_v2 (F := Ideal) x1 x2 (lidx_main_v4 (ix2 n j) (c3 k)) = x1 (ix2 n k) * x2 (ix2 n k) := by
  unfold val_main_v2
  refine (concatenate_apply_piece (t := S200000x1024) 1
    [⟨S200000x256, x1⟩, ⟨S200000x256, x2⟩, ⟨S200000x256, val_main_v0 (F := Ideal) x1 x2⟩, ⟨S200000x256, val_main_v1 (F := Ideal) x1 x2⟩]
    Gen.concatenates_S200000x256_S200000x256_S200000x256_S200000x256_S200000x1024_d1 _
    3 (by show (3 : Nat) < 4; omega) S200000x256 (val_main_v1 (F := Ideal) x1 x2) rfl rfl 768 rfl (ix2 n k)
    (fun b hb => by
      match b with
      | ⟨0, _⟩ => rfl
      | ⟨1, _⟩ => exact absurd rfl hb)
    (by show 768 + k.val = 768 + k.val; rfl)).trans ?_
  rfl

/-- The transposed weight at (k, j) is the weight at (j, k). -/
theorem wt (x3 : (⟨S256x1024, .f32⟩ : BufTy).Contents (Elt Ideal)) (n : Fin 200000) (j : Fin 256) (q : Fin 1024) :
    val_main_v3 (F := Ideal) x3 (ridx_main_v4 (ix2 n j) q) = x3 (ix2 j q) := by
  rw [val_main_v3_apply]
  refine congrArg x3 (funext fun a => Fin.ext ?_)
  match a with
  | ⟨0, _⟩ => rfl
  | ⟨1, _⟩ => rfl

/-- The broadcast bias at (n, j) is the bias at j. -/
theorem bias (x4 : (⟨S256, .f32⟩ : BufTy).Contents (Elt Ideal)) (n : Fin 200000) (j : Fin 256) :
    val_main_v6 (F := Ideal) x4 (ix2 n j) = x4 (ix1 j) := by
  rw [val_main_v6_apply, val_main_v5_apply]
  refine congrArg x4 (funext fun a => Fin.ext ?_)
  match a with
  | ⟨0, _⟩ => rfl

/-- The contraction over the concatenated axis, as the four chunk sums. -/
theorem dot_ref (x1 x2 : (⟨S200000x256, .f32⟩ : BufTy).Contents (Elt Ideal)) (x3 : (⟨S256x1024, .f32⟩ : BufTy).Contents (Elt Ideal))
    (n : Fin 200000) (j : Fin 256) :
    val_main_v4 (F := Ideal) x1 x2 x3 (ix2 n j)
      = (((∑ k : Fin 256, x1 (ix2 n k) * x3 (ix2 j (c0 k))) + ∑ k : Fin 256, x2 (ix2 n k) * x3 (ix2 j (c1 k)))
          + ∑ k : Fin 256, (x1 (ix2 n k) - x2 (ix2 n k)) * x3 (ix2 j (c2 k)))
        + ∑ k : Fin 256, (x1 (ix2 n k) * x2 (ix2 n k)) * x3 (ix2 j (c3 k)) := by
  rw [val_main_v4_apply, sum_four_chunks]
  simp only [cat0, cat1, cat2, cat3, wt]

/-- The gate's pre-activation: the contraction plus the bias is `gateIn` of the two rows. -/
theorem gate_in_ref (x1 x2 : (⟨S200000x256, .f32⟩ : BufTy).Contents (Elt Ideal)) (x3 : (⟨S256x1024, .f32⟩ : BufTy).Contents (Elt Ideal))
    (x4 : (⟨S256, .f32⟩ : BufTy).Contents (Elt Ideal)) (n : Fin 200000) (j : Fin 256) :
    val_main_v7 (F := Ideal) x1 x2 x3 x4 (ix2 n j)
      = gateIn (fun k => x1 (ix2 n k)) (fun k => x2 (ix2 n k)) (fun k q => x3 (ix2 q k)) (fun q => x4 (ix1 q)) j := by
  rw [val_main_v7_apply, dot_ref, bias, Ideal.addf_def]
  rfl

/-- The gate: one over one plus the exponential of minus the pre-activation is its logistic. -/
theorem gate_ref (x1 x2 : (⟨S200000x256, .f32⟩ : BufTy).Contents (Elt Ideal)) (x3 : (⟨S256x1024, .f32⟩ : BufTy).Contents (Elt Ideal))
    (x4 : (⟨S256, .f32⟩ : BufTy).Contents (Elt Ideal)) (n : Fin 200000) (j : Fin 256) :
    val_main_v13 (F := Ideal) x1 x2 x3 x4 (ix2 n j)
      = Ideal.logistic (gateIn (fun k => x1 (ix2 n k)) (fun k => x2 (ix2 n k)) (fun k q => x3 (ix2 q k)) (fun q => x4 (ix1 q)) j) := by
  rw [val_main_v13_apply, val_main_v12_apply, val_main_cst_0_apply, val_main_v11_apply, val_main_v10_apply,
    val_main_cst_apply, val_main_v9_apply, val_main_v8_apply, gate_in_ref]
  simp only [Ideal.hostDivf_def, Ideal.hostUnary_exp_def, Ideal.hostNegf_def, Ideal.negf_def, Ideal.addf_def, Ideal.ofBits_def]
  exact logistic_expanded _

/-- Entry (n, j) of the reference's fused hidden state is `fuse` of rows n of the two hidden arrays at feature j. -/
theorem fuse_ref (x1 x2 : (⟨S200000x256, .f32⟩ : BufTy).Contents (Elt Ideal)) (x3 : (⟨S256x1024, .f32⟩ : BufTy).Contents (Elt Ideal))
    (x4 : (⟨S256, .f32⟩ : BufTy).Contents (Elt Ideal)) (n : Fin 200000) (j : Fin 256) :
    val_main_v18 (F := Ideal) x1 x2 x3 x4 (ix2 n j)
      = fuse (fun k => x1 (ix2 n k)) (fun k => x2 (ix2 n k)) (fun k q => x3 (ix2 q k)) (fun q => x4 (ix1 q)) j := by
  rw [val_main_v18_apply, val_main_v14_apply, val_main_v17_apply, val_main_v16_apply, val_main_v15_apply,
    val_main_cst_1_apply, gate_ref]
  simp only [Ideal.addf_def, Ideal.subf_def, Ideal.mulf_def, Ideal.ofBits_def]
  rfl

end Cert.GatedGru.RefFuse

end
-- ==== Proof.RefGru.lean ====
/-
  The reference program's last stretch is a GRU cell on the fused hidden state.

  Write `fz` for row `n` of the fused hidden state (the program's stage 18, taken here as a given array), `fr` for row
  `n` of the input features, `wih k c`, `whh k c` for the two GRU weights read with the feature index first (the program
  transposes them before it contracts), and `bih`, `bhh` for the two biases. Then entry `(n, j)` of the program's
  result is

    (1 − u j) · tanh (gi (512+j) + r j · gh (512+j)) + u j · fz j,
      gi c = Σₖ fr k · wih k c + bih c,   gh c = Σₖ fz k · whh k c + bhh c,
      r j = logistic (gi j + gh j),       u j = logistic (gi (256+j) + gh (256+j)),

  which is `gruCell` of the row specification. The program spells each logistic as one divided by one plus the
  exponential of the negated argument; over the extended reals that expansion is the logistic function.
-/
import proofs.«114205_j65833258713547_1_alg».proof.Proof.RowSpec
import proofs.«114205_j65833258713547_1_alg».proof.Proof.Gen.ReferenceIdeal.Read
import Idealize.ShloMosaic.Lib.ValueIdx
import Idealize.ShloMosaic.PureOps.Ideal

noncomputable section

namespace Cert.GatedGru.RefGru

open Idealize.ShloMosaic Idealize.ShloMosaic.ValueIdx Cert.ReferenceIdeal Cert.ReferenceIdeal.Read Cert.GatedGru

section Stages

variable (x0 x1 x2 : (⟨S200000x256, .f32⟩ : BufTy).Contents (Elt Ideal)) (x3 : (⟨S256x1024, .f32⟩ : BufTy).Contents (Elt Ideal))
  (x4 : (⟨S256, .f32⟩ : BufTy).Contents (Elt Ideal)) (x5 x6 : (⟨S768x256, .f32⟩ : BufTy).Contents (Elt Ideal))
  (x7 x8 : (⟨S768, .f32⟩ : BufTy).Contents (Elt Ideal)) (n : Fin 200000)

/-- The input-side gate pre-activations: entry `(n, c)` of the product of the input features with the transposed
    input weight, plus the broadcast bias, is `gi` of row `n` at gate column `c`. -/
theorem gi_ref (c : Fin 768) :
    val_main_v23 (F := Ideal) x0 x5 x7 (ix2 n c)
      = gi (fun k => x0 (ix2 n k)) (fun k c => x5 (ix2 c k)) (fun c => x7 (ix1 c)) c := by
  rw [val_main_v23_apply, val_main_v20_apply, val_main_v22_apply, val_main_v21_apply]
  unfold gi
  simp only [Ideal.addf_def]
  congr 1
  · refine Finset.sum_congr rfl fun k _ => ?_
    rw [val_main_v19_apply]
    have e1 : lidx_main_v20 (ix2 n c) k = ix2 n k := funext fun a => Fin.ext (by
      match a with
      | ⟨0, _⟩ => rfl
      | ⟨1, _⟩ => rfl)
    have e2 : idx_main_v19 (ridx_main_v20 (ix2 n c) k) = ix2 c k := funext fun a => Fin.ext (by
      match a with
      | ⟨0, _⟩ => rfl
      | ⟨1, _⟩ => rfl)
    rw [e1, e2]
  · have e3 : idx_main_v21 (idx_main_v22 (ix2 n c)) = ix1 c := funext fun a => Fin.ext (by
      match a with
      | ⟨0, _⟩ => rfl)
    rw [e3]

/-- The hidden-side gate pre-activations: the same reading with the fused hidden state as the left operand, which
    stays a given array. -/
theorem gh_ref (c : Fin 768) :
    val_main_v28 (F := Ideal) x1 x2 x3 x4 x6 x8 (ix2 n c)
      = gh (fun k c => x6 (ix2 c k)) (fun c => x8 (ix1 c))
          (fun k => val_main_v18 (F := Ideal) x1 x2 x3 x4 (ix2 n k)) c := by
  rw [val_main_v28_apply, val_main_v25_apply, val_main_v27_apply, val_main_v26_apply]
  generalize val_main_v18 (F := Ideal) x1 x2 x3 x4 = y
  unfold gh
  simp only [Ideal.addf_def]
  congr 1
  · refine Finset.sum_congr rfl fun k _ => ?_
    rw [val_main_v24_apply]
    have e1 : lidx_main_v25 (ix2 n c) k = ix2 n k := funext fun a => Fin.ext (by
      match a with
      | ⟨0, _⟩ => rfl
      | ⟨1, _⟩ => rfl)
    have e2 : idx_main_v24 (ridx_main_v25 (ix2 n c) k) = ix2 c k := funext fun a => Fin.ext (by
      match a with
      | ⟨0, _⟩ => rfl
      | ⟨1, _⟩ => rfl)
    rw [e1, e2]
  · have e3 : idx_main_v26 (idx_main_v27 (ix2 n c)) = ix1 c := funext fun a => Fin.ext (by
      match a with
      | ⟨0, _⟩ => rfl)
    rw [e3]

variable (j : Fin 256)

/-! The three column slices of each pre-activation array read it at the reset, update and candidate thirds. -/

theorem gi0_ref : val_main_v29 (F := Ideal) x0 x5 x7 (ix2 n j)
    = gi (fun k => x0 (ix2 n k)) (fun k c => x5 (ix2 c k)) (fun c => x7 (ix1 c)) (g0 j) := by
  rw [val_main_v29_apply]
  have e : idx_main_v29 (ix2 n j) = ix2 n (g0 j) := funext fun a => Fin.ext (by
    match a with
    | ⟨0, _⟩ => rfl
    | ⟨1, _⟩ => rfl)
  rw [e]; exact gi_ref x0 x5 x7 n (g0 j)

theorem gi1_ref : val_main_v30 (F := Ideal) x0 x5 x7 (ix2 n j)
    = gi (fun k => x0 (ix2 n k)) (fun k c => x5 (ix2 c k)) (fun c => x7 (ix1 c)) (g1 j) := by
  rw [val_main_v30_apply]
  have e : idx_main_v30 (ix2 n j) = ix2 n (g1 j) := funext fun a => Fin.ext (by
    match a with
    | ⟨0, _⟩ => rfl
    | ⟨1, _⟩ => rfl)
  rw [e]; exact gi_ref x0 x5 x7 n (g1 j)

theorem gi2_ref : val_main_v31 (F := Ideal) x0 x5 x7 (ix2 n j)
    = gi (fun k => x0 (ix2 n k)) (fun k c => x5 (ix2 c k)) (fun c => x7 (ix1 c)) (g2 j) := by
  rw [val_main_v31_apply]
  have e : idx_main_v31 (ix2 n j) = ix2 n (g2 j) := funext fun a => Fin.ext (by
    match a with
    | ⟨0, _⟩ => rfl
    | ⟨1, _⟩ => rfl)
  rw [e]; exact gi_ref x0 x5 x7 n (g2 j)

theorem gh0_ref : val_main_v32 (F := Ideal) x1 x2 x3 x4 x6 x8 (ix2 n j)
    = gh (fun k c => x6 (ix2 c k)) (fun c => x8 (ix1 c))
        (fun k => val_main_v18 (F := Ideal) x1 x2 x3 x4 (ix2 n k)) (g0 j) := by
  rw [val_main_v32_apply]
  have e : idx_main_v32 (ix2 n j) = ix2 n (g0 j) := funext fun a => Fin.ext (by
    match a with
    | ⟨0, _⟩ => rfl
    | ⟨1, _⟩ => rfl)
  rw [e]; exact gh_ref x1 x2 x3 x4 x6 x8 n (g0 j)

theorem gh1_ref : val_main_v33 (F := Ideal) x1 x2 x3 x4 x6 x8 (ix2 n j)
    = gh (fun k c => x6 (ix2 c k)) (fun c => x8 (ix1 c))
        (fun k => val_main_v18 (F := Ideal) x1 x2 x3 x4 (ix2 n k)) (g1 j) := by
  rw [val_main_v33_apply]
  have e : idx_main_v33 (ix2 n j) = ix2 n (g1 j) := funext fun a => Fin.ext (by
    match a with
    | ⟨0, _⟩ => rfl
    | ⟨1, _⟩ => rfl)
  rw [e]; exact gh_ref x1 x2 x3 x4 x6 x8 n (g1 j)

theorem gh2_ref : val_main_v34 (F := Ideal) x1 x2 x3 x4 x6 x8 (ix2 n j)
    = gh (fun k c => x6 (ix2 c k)) (fun c => x8 (ix1 c))
        (fun k => val_main_v18 (F := Ideal) x1 x2 x3 x4 (ix2 n k)) (g2 j) := by
  rw [val_main_v34_apply]
  have e : idx_main_v34 (ix2 n j) = ix2 n (g2 j) := funext fun a => Fin.ext (by
    match a with
    | ⟨0, _⟩ => rfl
    | ⟨1, _⟩ => rfl)
  rw [e]; exact gh_ref x1 x2 x3 x4 x6 x8 n (g2 j)

/-- The reset gate: one over one plus the exponential of the negated sum of the two reset pre-activations is their
    logistic. -/
theorem r_ref : val_main_v41 (F := Ideal) x0 x1 x2 x3 x4 x5 x6 x7 x8 (ix2 n j)
    = rGate (fun k => x0 (ix2 n k)) (fun k c => x5 (ix2 c k)) (fun k c => x6 (ix2 c k)) (fun c => x7 (ix1 c))
        (fun c => x8 (ix1 c)) (fun k => val_main_v18 (F := Ideal) x1 x2 x3 x4 (ix2 n k)) j := by
  rw [val_main_v41_apply, val_main_v40_apply, val_main_cst_3_apply, val_main_v39_apply, val_main_v38_apply,
    val_main_cst_2_apply, val_main_v37_apply, val_main_v36_apply, val_main_v35_apply, gi0_ref, gh0_ref]
  simp only [Ideal.hostDivf_def, Ideal.hostUnary_exp_def, Ideal.hostNegf_def, Ideal.negf_def, Ideal.addf_def,
    Ideal.ofBits_def]
  exact logistic_expanded _

/-- The update gate, likewise, from the two update pre-activations. -/
theorem u_ref : val_main_v48 (F := Ideal) x0 x1 x2 x3 x4 x5 x6 x7 x8 (ix2 n j)
    = uGate (fun k => x0 (ix2 n k)) (fun k c => x5 (ix2 c k)) (fun k c => x6 (ix2 c k)) (fun c => x7 (ix1 c))
        (fun c => x8 (ix1 c)) (fun k => val_main_v18 (F := Ideal) x1 x2 x3 x4 (ix2 n k)) j := by
  rw [val_main_v48_apply, val_main_v47_apply, val_main_cst_5_apply, val_main_v46_apply, val_main_v45_apply,
    val_main_cst_4_apply, val_main_v44_apply, val_main_v43_apply, val_main_v42_apply, gi1_ref, gh1_ref]
  simp only [Ideal.hostDivf_def, Ideal.hostUnary_exp_def, Ideal.hostNegf_def, Ideal.negf_def, Ideal.addf_def,
    Ideal.ofBits_def]
  exact logistic_expanded _

/-- The candidate state: the hyperbolic tangent of the candidate input pre-activation plus the reset gate times the
    candidate hidden pre-activation. -/
theorem cand_ref : val_main_v51 (F := Ideal) x0 x1 x2 x3 x4 x5 x6 x7 x8 (ix2 n j)
    = cand (fun k => x0 (ix2 n k)) (fun k c => x5 (ix2 c k)) (fun k c => x6 (ix2 c k)) (fun c => x7 (ix1 c))
        (fun c => x8 (ix1 c)) (fun k => val_main_v18 (F := Ideal) x1 x2 x3 x4 (ix2 n k)) j := by
  rw [val_main_v51_apply, val_main_v50_apply, val_main_v49_apply, r_ref, gi2_ref, gh2_ref]
  simp only [Ideal.hostUnary_tanh_def, Ideal.addf_def, Ideal.mulf_def]
  rfl

end Stages

/-- Entry `(n, j)` of the reference program's result is the GRU cell of the row specification, on row `n` of the input
    features and row `n` of the fused hidden state. -/
theorem gru_ref (x0 x1 x2 : (⟨S200000x256, .f32⟩ : BufTy).Contents (Elt Ideal)) (x3 : (⟨S256x1024, .f32⟩ : BufTy).Contents (Elt Ideal))
    (x4 : (⟨S256, .f32⟩ : BufTy).Contents (Elt Ideal)) (x5 x6 : (⟨S768x256, .f32⟩ : BufTy).Contents (Elt Ideal))
    (x7 x8 : (⟨S768, .f32⟩ : BufTy).Contents (Elt Ideal)) (n : Fin 200000) (j : Fin 256) :
    val_main_v56 (F := Ideal) x0 x1 x2 x3 x4 x5 x6 x7 x8 (ix2 n j)
      = gruCell (fun k => x0 (ix2 n k)) (fun k c => x5 (ix2 c k)) (fun k c => x6 (ix2 c k)) (fun c => x7 (ix1 c)) (fun c => x8 (ix1 c))
          (fun k => val_main_v18 (F := Ideal) x1 x2 x3 x4 (ix2 n k)) (val_main_v18 (F := Ideal) x1 x2 x3 x4 (ix2 n j)) j := by
  rw [val_main_v56_apply, val_main_v54_apply, val_main_v55_apply, val_main_v53_apply, val_main_v52_apply,
    val_main_cst_6_apply, u_ref, cand_ref]
  simp only [Ideal.addf_def, Ideal.subf_def, Ideal.mulf_def, Ideal.ofBits_def]
  rfl

end Cert.GatedGru.RefGru

end
-- ==== Proof.RefArray.lean ====
/-
  The reference's result term is the result array: entry `(n, j)` of its last stage is the GRU cell (read in its own
  module) over the fused hidden state (read in its own module) of row `n` of the node arrays.
-/
import proofs.«114205_j65833258713547_1_alg».proof.Proof.Gen.ReferenceIdeal.Read
import proofs.«114205_j65833258713547_1_alg».proof.Proof.ArraySpec
import proofs.«114205_j65833258713547_1_alg».proof.Proof.RefFuse
import proofs.«114205_j65833258713547_1_alg».proof.Proof.RefGru
import Idealize.ShloMosaic.Lib.ValueIdx

noncomputable section

namespace Cert.ReferenceIdeal.RefValue

open Idealize.ShloMosaic Idealize.ShloMosaic.ValueIdx Cert.ReferenceIdeal Cert.ReferenceIdeal.Read Cert.GatedGru

/-- The reference's last stage, as one array, is `result` of the arguments. -/
theorem ref_result (x0 x1 x2 : (⟨S200000x256, .f32⟩ : BufTy).Contents (Elt Ideal)) (x3 : (⟨S256x1024, .f32⟩ : BufTy).Contents (Elt Ideal))
    (x4 : (⟨S256, .f32⟩ : BufTy).Contents (Elt Ideal)) (x5 x6 : (⟨S768x256, .f32⟩ : BufTy).Contents (Elt Ideal))
    (x7 x8 : (⟨S768, .f32⟩ : BufTy).Contents (Elt Ideal)) :
    val_main_v56 (F := Ideal) x0 x1 x2 x3 x4 x5 x6 x7 x8 = result x0 x1 x2 x3 x4 x5 x6 x7 x8 := by
  funext i
  obtain ⟨n, j, rfl⟩ : ∃ (n : Fin 200000) (j : Fin 256), i = ix2 n j := ⟨i 0, i 1, eq_ix2 i⟩
  rw [Cert.GatedGru.RefGru.gru_ref, result_ix2]
  unfold entry cell
  have e : (fun k : Fin 256 => val_main_v18 (F := Ideal) x1 x2 x3 x4 (ix2 n k))
      = fuse (fun k => x1 (ix2 n k)) (fun k => x2 (ix2 n k)) (fun k q => x3 (ix2 q k)) (fun q => x4 (ix1 q)) :=
    funext fun k => Cert.GatedGru.RefFuse.fuse_ref x1 x2 x3 x4 n k
  rw [e, Cert.GatedGru.RefFuse.fuse_ref]

end Cert.ReferenceIdeal.RefValue

end
-- ==== Proof.lean ====
/-
  The certificate of the gated fuse followed by a GRU cell, row-wise over 200000 nodes, against its reference.

  Both programs compute, for every node `n` and feature `j`,
    z = logistic (W_z · [h, h', h − h', h · h'] + b_z),  fuse = z · h + (1 − z) · h',
    r = logistic (gi_r + gh_r),  u = logistic (gi_z + gh_z),  cand = tanh (gi_n + r · gh_n),  out = (1 − u) · cand + u · fuse,
  with `gi = W_ih · f + b_ih` and `gh = W_hh · fuse + b_hh`. The kernel multiplies the four 256-wide feature chunks by
  the four row blocks of the transposed fuse weight and adds the four products; the reference concatenates the chunks
  and multiplies once: over the extended reals a sum over 1024 terms is the sum of its four chunks of 256, by
  commutativity and associativity of addition alone, so no finiteness is used. The kernel's logistic is one operation,
  the reference's is its expansion into negate, exponential, add and divide: one function of an extended real. Changes of
  float format in the kernel are the identity. The kernel tiles the rows into 200 blocks of 1000; each block of the
  result depends on the same rows of the node arrays, so the blocks are the restrictions of one array.

  The three frames come from the generated frame proofs and the reference's generated run; the idealization rewrote
  nothing, so `preserves` is trivial; `algebraic` sets the kernel's run, read as `result` of the arguments, beside the
  reference's run, whose last stage is the same `result`.
-/
import proofs.«114205_j65833258713547_1_alg».proof.Defs
import proofs.«114205_j65833258713547_1_alg».proof.Proof.Gen.Kernel
import proofs.«114205_j65833258713547_1_alg».proof.Proof.Gen.Kernel.Skeleton
import proofs.«114205_j65833258713547_1_alg».proof.Proof.Gen.Kernel.Launch
import proofs.«114205_j65833258713547_1_alg».proof.Proof.Gen.Kernel.Points
import proofs.«114205_j65833258713547_1_alg».proof.Proof.Gen.Kernel.Frame
import proofs.«114205_j65833258713547_1_alg».proof.Proof.Gen.KernelIdeal
import proofs.«114205_j65833258713547_1_alg».proof.Proof.Gen.KernelIdeal.Skeleton
import proofs.«114205_j65833258713547_1_alg».proof.Proof.Gen.KernelIdeal.Launch
import proofs.«114205_j65833258713547_1_alg».proof.Proof.Gen.KernelIdeal.Points
import proofs.«114205_j65833258713547_1_alg».proof.Proof.Gen.KernelIdeal.Frame
import proofs.«114205_j65833258713547_1_alg».proof.Proof.Gen.ReferenceIdeal
import proofs.«114205_j65833258713547_1_alg».proof.Proof.Gen.Pre_finite_inputs
import proofs.«114205_j65833258713547_1_alg».proof.Proof.Gen.KernelIdeal.Value
import proofs.«114205_j65833258713547_1_alg».proof.Proof.Gen.ReferenceIdeal.Run
import proofs.«114205_j65833258713547_1_alg».proof.Proof.Gen.ReferenceIdeal.Read
import proofs.«114205_j65833258713547_1_alg».proof.Proof.Blocks
import proofs.«114205_j65833258713547_1_alg».proof.Proof.RefArray
import Idealize.ShloMosaic.Adequacy
import Idealize.ShloMosaic.Init

noncomputable section

namespace Cert.Proof.Claims

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `result` of arguments that agree. -/
theorem algebraic : Cert.algebraic_KernelIdeal_ReferenceIdeal := by
  intro m ρ m' ρ' _ hagree
  refine ⟨fun c => Cert.KernelIdeal.Blocks.res m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, Cert.ReferenceIdeal.RefValue.ref_result,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

end Cert.Proof.Claims

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, trivial, Cert.Proof.Claims.algebraic⟩

end Cert.Proof

end
